-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S4096x768 : Shape := ⟨2, ![4096, 768]⟩
abbrev S1024x768 : Shape := ⟨2, ![1024, 768]⟩
abbrev S4096x1 : Shape := ⟨2, ![4096, 1]⟩
abbrev S768x1024 : Shape := ⟨2, ![768, 1024]⟩
abbrev S4096x1024 : Shape := ⟨2, ![4096, 1024]⟩
abbrev S4096 : Shape := ⟨1, ![4096]⟩

abbrev nBuf : Space → Nat
  | .hbm => 26
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x768, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x768, .f32⟩
  | .hbm, ⟨19, _⟩ => ⟨S8192x768, .f32⟩
  | .hbm, ⟨20, _⟩ => ⟨S8192x768, .bf16⟩
  | .hbm, ⟨21, _⟩ => ⟨S8192x768, .f32⟩
  | .hbm, ⟨22, _⟩ => ⟨S8192x768, .f32⟩
  | .hbm, ⟨23, _⟩ => ⟨S8192x768, .bf16⟩
  | .hbm, ⟨24, _⟩ => ⟨S8192x1, .f32⟩
  | .hbm, ⟨25, _⟩ => ⟨S8192, .f32⟩
  | .local _ .vmem, ⟨0, _⟩ => ⟨S4096x768, .bf16⟩
  | .local _ .vmem, ⟨1, _⟩ => ⟨S4096x768, .bf16⟩
  | .local _ .vmem, ⟨2, _⟩ => ⟨S1024x768, .bf16⟩
  | .local _ .vmem, ⟨3, _⟩ => ⟨S1024x768, .bf16⟩
  | .local _ .vmem, ⟨4, _⟩ => ⟨S4096x1, .f32⟩
  | .local _ .vmem, ⟨5, _⟩ => ⟨S4096x1, .f32⟩
  | .local _ .vmem, ⟨6, _⟩ => ⟨S4096x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  transposes_S1024x768_p1_0_S768x1024 : S1024x768.Transposes [1, 0] S768x1024
  reduces_S4096x1024_S4096 : S4096x1024.Reduces [1] S4096
  shapeCasts_S4096_S4096x1 : S4096.ShapeCasts S4096x1
  shapeCasts_S8192x1_S8192 : S8192x1.ShapeCasts S8192
  dot_S4096x768_S768x1024_S4096x1024_1_0_0_1_n_n_wf : DotDims.WF S4096x768 S768x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S8192x768.size a
  hwx0_0 : ∀ i : grid0.Coords, EltTy.bits .bf16 = 32 ∨ (Rect.block (s := S8192x768) S4096x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .bf16 = 32 ∨ (Rect.block (s := S8192x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S8192x1.size a
  hwx0_2 : ∀ i : grid0.Coords, EltTy.bits .f32 = 32 ∨ (Rect.block (s := S8192x1) S4096x1.size (cc0_transform_2 i) (hinb0_2 i)).WholeWords (EltTy.packing .f32)

variable [Facts₀]

def dot_S4096x768_S768x1024_S4096x1024_1_0_0_1_n_n : DotDims S4096x768 S768x1024 S4096x1024 where
  lhsContracting := [1]
  rhsContracting := [0]
  lhsNonContracting := [0]
  rhsNonContracting := [1]
  lhsBatch := []
  rhsBatch := []
  wf := dot_S4096x768_S768x1024_S4096x1024_1_0_0_1_n_n_wf

abbrev win0_0 : Pipeline.Window sig grid0 :=
  Pipeline.Window.ofSpec (Memref.whole main_v8) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x768, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x768, .f32⟩
  | .hbm, ⟨19, _⟩ => ⟨S8192x768, .f32⟩
  | .hbm, ⟨20, _⟩ => ⟨S8192x768, .f32⟩
  | .hbm, ⟨21, _⟩ => ⟨S8192x768, .f32⟩
  | .hbm, ⟨22, _⟩ => ⟨S8192x8192, .f32⟩
  | .hbm, ⟨23, _⟩ => ⟨S_, .f32⟩
  | .hbm, ⟨24, _⟩ => ⟨S8192, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  reducesTo_S8192x8192_S8192_d1 : S8192x8192.ReducesTo [1] S8192
  dot_S8192x768_S8192x768_S8192x8192_1_1_0_0_n_n_wf : DotDims.WF S8192x768 S8192x768 S8192x8192 [1] [1] [0] [0] [] []

variable [Facts₀]

def dot_S8192x768_S8192x768_S8192x8192_1_1_0_0_n_n : DotDims S8192x768 S8192x768 S8192x8192 where
  lhsContracting := [1]
  rhsContracting := [1]
  lhsNonContracting := [0]
  rhsNonContracting := [0]
  lhsBatch := []
  rhsBatch := []
  wf := dot_S8192x768_S8192x768_S8192x8192_1_1_0_0_n_n_wf

class Facts : Prop extends Facts₀ where

variable [Facts]
-- ==== Proof.KiPieces.lean ====
/-
  What each control case of the body leaves in the carried accumulator and in the output block, as values.
-/
import proofs.«144138_j31258771980987_1_alg».proof.Proof.Gen.KernelIdeal.Frame
import Idealize.ShloMosaic.Lib.Pipeline.Value
import Idealize.ShloMosaic.Lib.Tactic

noncomputable section

namespace Cert.KernelIdeal.RowMaxValue

open Cert.KernelIdeal Cert.KernelIdeal.Gen Idealize.ShloMosaic Idealize.ShloMosaic.TcCoe Idealize.SL.Sem

variable {F : FTy → Type} [FloatOps F]

/-- The zero offsets, as a constant function. -/
theorem hz : (![0, 0] : Fin 2 → Nat) = fun _ => 0 := funext fun a => by fin_cases a <;> rfl

/-- At an interior column block the accumulator ends at the update of what the point before left. -/
theorem acc_B (c : Dev nD) (i : grid0.Coords) (a2 : Memref sig .tc .vmem S4096x768 .bf16) (h2 : a2.IsWhole)
    (a3 : Memref sig .tc .vmem S1024x768 .bf16) (h3 : a3.IsWhole) (a4 : Memref sig .tc .vmem S4096x1 .f32) (h4 : a4.IsWhole)
    (a5 : Memref sig .tc .vmem S4096x1 .f32) (h5 : a5.IsWhole) (hc0 : ¬cond0_0 i) (hc1 : ¬cond0_1 i)
    (x0 : Vec F S4096x768 .bf16) (x1 : Vec F S1024x768 .bf16) (xs : Vec F S4096x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz]
  simp only [View.readAt_eq_ld, h2.read_unread, h3.read_unread, h5.read_unread, View.ld_unit_zero (S := S4096x768) hz, View.ld_unit_zero (S := S1024x768) hz, View.ld_unit_zero (S := S4096x1) hz]

/-- At the first column block the accumulator is reset to minus infinity and then updated: the update of the reset block. -/
theorem acc_A (c : Dev nD) (i : grid0.Coords) (a2 : Memref sig .tc .vmem S4096x768 .bf16) (h2 : a2.IsWhole)
    (a3 : Memref sig .tc .vmem S1024x768 .bf16) (h3 : a3.IsWhole) (a4 : Memref sig .tc .vmem S4096x1 .f32) (h4 : a4.IsWhole)
    (a5 : Memref sig .tc .vmem S4096x1 .f32) (h5 : a5.IsWhole) (hc0 : cond0_0 i) (hc1 : ¬cond0_1 i)
    (x0 : Vec F S4096x768 .bf16) (x1 : Vec F S1024x768 .bf16) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S4096x1) hz, View.readCov_unit_zero (S := S4096x1) _ hz]
  simp only [View.readAt_eq_ld, h2.read_unread, h3.read_unread, h5.read_unread, View.ld_unit_zero (S := S4096x768) hz, View.ld_unit_zero (S := S1024x768) hz, View.ld_unit_zero (S := S4096x1) hz]

/-- At the last column block the accumulator ends at the update of what the point before left, -/
theorem acc_C (c : Dev nD) (i : grid0.Coords) (a2 : Memref sig .tc .vmem S4096x768 .bf16) (h2 : a2.IsWhole)
    (a3 : Memref sig .tc .vmem S1024x768 .bf16) (h3 : a3.IsWhole) (a4 : Memref sig .tc .vmem S4096x1 .f32) (h4 : a4.IsWhole)
    (a5 : Memref sig .tc .vmem S4096x1 .f32) (h5 : a5.IsWhole) (hc0 : ¬cond0_0 i) (hc1 : cond0_1 i)
    (x0 : Vec F S4096x768 .bf16) (x1 : Vec F S1024x768 .bf16) (xs : Vec F S4096x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S4096x768) hz, View.ld_unit_zero (S := S1024x768) hz, View.ld_unit_zero (S := S4096x1) hz]

/-- and the output block is a copy of that accumulator. -/
theorem out_C (c : Dev nD) (i : grid0.Coords) (a2 : Memref sig .tc .vmem S4096x768 .bf16) (h2 : a2.IsWhole)
    (a3 : Memref sig .tc .vmem S1024x768 .bf16) (h3 : a3.IsWhole) (a4 : Memref sig .tc .vmem S4096x1 .f32) (h4 : a4.IsWhole)
    (a5 : Memref sig .tc .vmem S4096x1 .f32) (h5 : a5.IsWhole) (hc0 : ¬cond0_0 i) (hc1 : cond0_1 i)
    (x0 : Vec F S4096x768 .bf16) (x1 : Vec F S1024x768 .bf16) (xs : Vec F S4096x1 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S4096x1) _ hz]
  simp only [View.readAt_eq_ld, h2.read_unread, h3.read_unread, h5.read_unread, View.ld_unit_zero (S := S4096x768) hz, View.ld_unit_zero (S := S1024x768) hz, View.ld_unit_zero (S := S4096x1) hz]

end Cert.KernelIdeal.RowMaxValue

end
-- ==== Proof.KiPayload.lean ====
/-
  The kernel body's arithmetic, read at one entry, over the extended reals.

  The body keeps a 4096 x 1 accumulator. It first stores minus infinity into it at the first column block, then
  replaces entry `p` by the larger of the old entry and the maximum, over the 1024 rows `q` of the current block of the
  second operand, of the inner product of row `p` of the first operand's block with row `q` — the matrix product
  with the transposed block (into a zero accumulator, so just the sum over the 768 columns), its row maximum from
  minus infinity, the cast of the 4096 maxima to a column.
-/
import proofs.«144138_j31258771980987_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowMaxValue

open Cert.KernelIdeal Cert.KernelIdeal.Gen Idealize.ShloMosaic Idealize.ShloMosaic.ValueIdx

/-- The word of minus infinity denotes the bottom element of the extended reals. -/
theorem negInf_eq_bot : Ideal.ofBits .f32 0xFF800000#32 = (⊥ : EReal) := by
  simp [Ideal.ofBits, Ideal.ieee]

/-- The reset block: minus infinity everywhere. -/
theorem reset_apply (i : S4096x1.Idx) : k0_pay1 (F := Ideal) i = (⊥ : EReal) := by
  unfold k0_pay1
  simp only [shapeCast_self]
  exact negInf_eq_bot

/-! ## The matrix product at an entry -/

theorem lhs_axis0 (i : S4096x1024.Idx) (q : dot_S4096x768_S768x1024_S4096x1024_1_0_0_1_n_n.contr.Idx) :
    (dot_S4096x768_S768x1024_S4096x1024_1_0_0_1_n_n.lhsIdx i q 0).val = (i 0).val := by
  unfold DotDims.lhsIdx
  rw [dif_neg (show ¬(0 : Fin S4096x768.rank) ∈ dot_S4096x768_S768x1024_S4096x1024_1_0_0_1_n_n.lhsBatch by decide), dif_pos (show (0 : Fin S4096x768.rank) ∈ dot_S4096x768_S768x1024_S4096x1024_1_0_0_1_n_n.lhsNonContracting by decide)]
  rfl
theorem lhs_axis1 (i : S4096x1024.Idx) (q : dot_S4096x768_S768x1024_S4096x1024_1_0_0_1_n_n.contr.Idx) :
    (dot_S4096x768_S768x1024_S4096x1024_1_0_0_1_n_n.lhsIdx i q 1).val = (q ⟨0, by decide⟩).val :=
  dot_S4096x768_S768x1024_S4096x1024_1_0_0_1_n_n.lhsIdx_val_of_single rfl i q
theorem rhs_axis0 (i : S4096x1024.Idx) (q : dot_S4096x768_S768x1024_S4096x1024_1_0_0_1_n_n.contr.Idx) :
    (dot_S4096x768_S768x1024_S4096x1024_1_0_0_1_n_n.rhsIdx i q 0).val = (q ⟨0, by decide⟩).val :=
  dot_S4096x768_S768x1024_S4096x1024_1_0_0_1_n_n.rhsIdx_val_of_single rfl i q
theorem rhs_axis1 (i : S4096x1024.Idx) (q : dot_S4096x768_S768x1024_S4096x1024_1_0_0_1_n_n.contr.Idx) :
    (dot_S4096x768_S768x1024_S4096x1024_1_0_0_1_n_n.rhsIdx i q 1).val = (i 1).val := by
  unfold DotDims.rhsIdx
  rw [dif_neg (show ¬(1 : Fin S768x1024.rank) ∈ dot_S4096x768_S768x1024_S4096x1024_1_0_0_1_n_n.rhsBatch by decide), dif_pos (show (1 : Fin S768x1024.rank) ∈ dot_S4096x768_S768x1024_S4096x1024_1_0_0_1_n_n.rhsNonContracting by decide)]
  rfl

/-- The product of a 4096 x 768 block with a 768 x 1024 block, into zero, at entry `(p, q)`: the sum over the 768
    columns `k` of the left block at `(p, k)` times the right block at `(k, q)`. -/
theorem matmul_at (a : FVec Ideal S4096x768 .bf16) (bt : FVec Ideal S768x1024 .bf16) (p : Fin 4096) (q : Fin 1024) :
    matmul dot_S4096x768_S768x1024_S4096x1024_1_0_0_1_n_n none a bt (constant (F := Ideal) S4096x1024 .f32 0x00000000#32) (ix2 p q)
      = ∑ k : Fin 768, a (ix2 p k) * bt (ix2 k q) := by
  simp only [matmul]
  rw [Ideal.matmul_constant_zero_apply, ← Equiv.sum_comp (contrEquiv1 dot_S4096x768_S768x1024_S4096x1024_1_0_0_1_n_n 768 rfl rfl).symm]
  refine Finset.sum_congr rfl fun k _ => ?_
  have hk := contrEquiv1_symm_val dot_S4096x768_S768x1024_S4096x1024_1_0_0_1_n_n 768 rfl rfl k
  have el : dot_S4096x768_S768x1024_S4096x1024_1_0_0_1_n_n.lhsIdx (ix2 p q) ((contrEquiv1 dot_S4096x768_S768x1024_S4096x1024_1_0_0_1_n_n 768 rfl rfl).symm k) = ix2 p k := funext fun a => Fin.ext (by
    match a with
    | ⟨0, _⟩ => exact lhs_axis0 _ _
    | ⟨1, _⟩ => exact (lhs_axis1 _ _).trans hk)
  have er : dot_S4096x768_S768x1024_S4096x1024_1_0_0_1_n_n.rhsIdx (ix2 p q) ((contrEquiv1 dot_S4096x768_S768x1024_S4096x1024_1_0_0_1_n_n 768 rfl rfl).symm k) = ix2 k q := funext fun a => Fin.ext (by
    match a with
    | ⟨0, _⟩ => exact (rhs_axis0 _ _).trans hk
    | ⟨1, _⟩ => exact rhs_axis1 _ _)
  rw [el, er]

/-! ## The accumulator's update at an entry -/

/-- The index of a 4096 x 1024 array that the row-maximum's fold visits at row `p`, column `q`. -/
theorem lift_eq (p : Fin 4096) (q : Fin 1024) :
    (reduces_S4096x1024_S4096 : S4096x1024.Reduces [1] S4096).lift (ix1 p) q = ix2 p q :=
  funext fun a => Fin.ext (by match a with | ⟨0, _⟩ => rfl | ⟨1, _⟩ => rfl)

/-- A vector of 4096 entries cast to a column reads, at `(p, 0)`, its entry `p`. -/
theorem column_apply (v : (S4096).Idx → EReal) (h : S4096.ShapeCasts S4096x1) (p : Fin 4096) (z : Fin 1) :
    shapeCast S4096x1 v h (ix2 p z) = v (ix1 p) :=
  shapeCast_apply v h (ix2 p z) (ix1 p) (by
    rw [Shape.rowMajor_val_one, Shape.rowMajor_val_two]
    show p.val = p.val * 1 + z.val
    omega)

/-- The row maximum of a 4096 x 1024 array from minus infinity, at row `p`: the fold of `max` from the bottom element
    over the 1024 columns. -/
theorem rowmax_apply (w : FVec Ideal S4096x1024 .f32) (h : S4096x1024.Reduces [1] S4096) (hφ : FKind.Formats .f32)
    (hacc : (0xFF800000#32 : BitVec 32) = FKind.maximumf.neutral .f32 hφ) (p : Fin 4096) :
    multiReduction .maximumf [1] S4096 w 0xFF800000#32 h hφ hacc (ix1 p)
      = (Finset.univ : Finset (Fin 1024)).fold max ⊥ fun q => w (ix2 p q) := by
  refine (Ideal.multiReduction_maximumf_single (a := 1) w 0xFF800000#32 h hφ hacc (ix1 p)).trans ?_
  show (Finset.univ : Finset (Fin 1024)).fold max (Ideal.ofBits .f32 0xFF800000#32) (w ∘ h.lift (ix1 p)) = _
  rw [negInf_eq_bot]
  refine congrArg (fun f => (Finset.univ : Finset (Fin 1024)).fold max ⊥ f) (funext fun q => ?_)
  exact congrArg w (funext fun a => Fin.ext (by match a with | ⟨0, _⟩ => rfl | ⟨1, _⟩ => rfl))

/-- The updated accumulator at entry `(p, 0)`: the larger of the old entry and the maximum over the 1024 rows `q` of
    the second block of the inner product of row `p` of the first block with row `q`. -/
theorem update_apply (x0 : Vec Ideal S4096x768 .bf16) (x1 : Vec Ideal S1024x768 .bf16) (xs : Vec Ideal S4096x1 .f32)
    (p : Fin 4096) (z : Fin 1) :
    k0_pay2 (F := Ideal) x0 x1 xs (ix2 p z)
      = max (xs (ix2 p z)) ((Finset.univ : Finset (Fin 1024)).fold max ⊥ fun q => ∑ k : Fin 768, x0 (ix2 p k) * x1 (ix2 q k)) := by
  unfold k0_pay2
  simp only [shapeCast_self]
  refine (maximumf_apply _ _ _).trans (congrArg (max (xs (ix2 p z))) ?_)
  refine (column_apply _ _ p z).trans ?_
  refine (rowmax_apply _ _ _ _ p).trans ?_
  refine congrArg (fun f => (Finset.univ : Finset (Fin 1024)).fold max ⊥ f) (funext fun q => ?_)
  refine (matmul_at _ _ p q).trans ?_
  refine Finset.sum_congr rfl fun k _ => ?_
  rw [transpose_ix2_apply]

end Cert.KernelIdeal.RowMaxValue

end
-- ==== Proof.RowMaxSpec.lean ====
/-
  The mathematics of the row-wise maximum of a similarity matrix, free of any program.

  For two 8192 x 768 arrays `A`, `B` of extended reals, `sim A B r q` is the inner product of row `r` of `A` with row
  `q` of `B`, and `rowMax A B r` the maximum of `sim A B r q` over all rows `q`, taken from the bottom element (minus
  infinity). A maximum over all 8192 rows may be taken 1024 rows at a time: `maxBelow f n` is the maximum of `f` over the
  rows below `n`; it is bottom at `n = 0`, grows by one block's maximum per step (`maxBelow_step`: only the lattice
  laws of `max`, no finiteness), and is the whole maximum at `n = 8192`.
-/
import Idealize.ShloMosaic.PureOps.Ideal
import Idealize.ShloMosaic.Lib.ValueIdx

noncomputable section

open scoped BigOperators

namespace Cert.RowMax

open Idealize.ShloMosaic Idealize.ShloMosaic.ValueIdx

/-- An 8192 x 768 array of extended reals. -/
abbrev Mat : Type := (⟨2, ![8192, 768]⟩ : Shape).Idx → EReal

/-- The inner product of row `r` of `A` with row `q` of `B`. -/
def sim (A B : Mat) (r q : Fin 8192) : EReal := ∑ k : Fin 768, A (ix2 r k) * B (ix2 q k)

/-- The maximum of `f` over the indices below `n`, from the bottom element. -/
def maxBelow (f : Fin 8192 → EReal) (n : ℕ) : EReal :=
  (Finset.univ.filter fun q : Fin 8192 => q.val < n).fold max ⊥ f

/-- The maximum over all rows `q` of the inner product of row `r` of `A` with row `q` of `B`. -/
def rowMax (A B : Mat) (r : Fin 8192) : EReal := (Finset.univ : Finset (Fin 8192)).fold max ⊥ (sim A B r)

/-- The result vector: entry `r` is the row maximum at `r`. -/
def result (A B : Mat) : (⟨1, ![8192]⟩ : Shape).Idx → EReal := fun i => rowMax A B (i 0)

/-- Below zero there is no index: the maximum is the bottom element. -/
theorem maxBelow_zero (f : Fin 8192 → EReal) : maxBelow f 0 = ⊥ := by
  unfold maxBelow
  rw [Finset.filter_false_of_mem (fun q _ => Nat.not_lt_zero _)]
  exact Finset.fold_empty

/-- Below 8192 lies every index: the maximum is the whole maximum. -/
theorem maxBelow_all (f : Fin 8192 → EReal) : maxBelow f 8192 = (Finset.univ : Finset (Fin 8192)).fold max ⊥ f := by
  unfold maxBelow
  rw [Finset.filter_true_of_mem (fun q _ => q.isLt)]

/-- One more block of 1024 indices: the maximum below `1024 (j + 1)` is the larger of the maximum below `1024 j` and the
    block's own maximum. Both sides have the same upper bounds. -/
theorem maxBelow_step (f : Fin 8192 → EReal) (j : ℕ) (hj : j < 8) :
    max (maxBelow f (1024 * j)) ((Finset.univ : Finset (Fin 1024)).fold max ⊥ fun q => f ⟨1024 * j + q.val, by omega⟩)
      = maxBelow f (1024 * (j + 1)) := by
  refine eq_of_forall_ge_iff fun c => ?_
  unfold maxBelow
  rw [max_le_iff, Finset.fold_max_le, Finset.fold_max_le, Finset.fold_max_le]
  constructor
  · rintro ⟨⟨_, h1⟩, ⟨_, h2⟩⟩
    refine ⟨bot_le, fun q hq => ?_⟩
    have hq' : q.val < 1024 * (j + 1) := (Finset.mem_filter.1 hq).2
    by_cases hlt : q.val < 1024 * j
    · exact h1 q (Finset.mem_filter.2 ⟨Finset.mem_univ _, hlt⟩)
    · have h := h2 ⟨q.val - 1024 * j, by omega⟩ (Finset.mem_univ _)
      have e : (⟨1024 * j + (q.val - 1024 * j), by omega⟩ : Fin 8192) = q := Fin.ext (by show 1024 * j + (q.val - 1024 * j) = q.val; omega)
      rw [e] at h
      exact h
  · rintro ⟨_, h⟩
    refine ⟨⟨bot_le, fun q hq => h q ?_⟩, ⟨bot_le, fun q _ => h _ ?_⟩⟩
    · have hq' : q.val < 1024 * j := (Finset.mem_filter.1 hq).2
      exact Finset.mem_filter.2 ⟨Finset.mem_univ _, by omega⟩
    · exact Finset.mem_filter.2 ⟨Finset.mem_univ _, by show 1024 * j + q.val < 1024 * (j + 1); omega⟩

end Cert.RowMax

end
-- ==== Proof.KiAccum.lean ====
/-
  The accumulator across the grid, and the array the pallas_call leaves.

  The grid has 16 points `t = 8 i + j`: row tile `i` (4096 rows of the first operand) and column block `j` (1024 rows of
  the second operand). After point `t` the accumulator's entry `p` is the maximum, over the rows `q` below
  `1024 (j + 1)` of the second operand, of the inner product of row `4096 i + p` of the first operand with row `q`
  (by induction on the point; each step is one block's maximum joined on). At `j = 7` this is the maximum over all 8192
  rows, which the body copies into the output block; those blocks tile the 8192 x 1 result.
-/
import proofs.«144138_j31258771980987_1_alg».proof.Proof.Gen.KernelIdeal.Frame
import proofs.«144138_j31258771980987_1_alg».proof.Proof.KiPieces
import proofs.«144138_j31258771980987_1_alg».proof.Proof.KiPayload
import proofs.«144138_j31258771980987_1_alg».proof.Proof.RowMaxSpec
import Idealize.ShloMosaic.Lib.Pipeline.Value
import Idealize.ShloMosaic.Lib.ValueIdx

noncomputable section

open scoped BigOperators

namespace Cert.KernelIdeal.RowMaxValue

open Cert.KernelIdeal Cert.KernelIdeal.Gen Idealize.ShloMosaic Idealize.ShloMosaic.TcCoe Idealize.SL.Sem
open Idealize.ShloMosaic.ValueIdx Cert.RowMax
open Idealize.ShloMosaic.Pipeline (Dat)

variable (m : (ℓ : Loc nD τ sig) → Buf (Elt Ideal) ℓ)

/-- The two operand arrays as the pallas_call finds them. -/
abbrev opA (c : Dev nD) : Mat := V m c main_v8
abbrev opB (c : Dev nD) : Mat := V m c main_v11

/-- The operands' blocks at a point, at their literal types. -/
abbrev blkA (c : Dev nD) (t : Fin cfg0.N) : Vec Ideal S4096x768 .bf16 := iblk m c 0 t
abbrev blkB (c : Dev nD) (t : Fin cfg0.N) : Vec Ideal S1024x768 .bf16 := iblk m c 1 t

/-- The printed index maps over the grid: point `t` is row tile `t / 8`, column block `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The row of the first operand that accumulator entry `p` stands for at point `n`. -/
def rowOf (n : ℕ) (hn : n < cfg0.N) (p : Fin 4096) : Fin 8192 :=
  ⟨4096 * (n / 8) + p.val, by have hN : cfg0.N = 16 := N_0; omega⟩

/-- Row `p` of the first operand's block at point `t` is row `4096 (t / 8) + p` of the operand. -/
theorem blkA_apply (c : Dev nD) (t : Fin cfg0.N) (p : Fin 4096) (k : Fin 768) :
    blkA m c t (ix2 p k) = opA m c (ix2 (rowOf t.val t.isLt p) k) := by
  obtain ⟨e0, e1, -⟩ := idx_facts t
  show V m c main_v8 (((cfg0.win 0).blk t).view.emb (ix2 p k)) = V m c main_v8 (ix2 (rowOf t.val t.isLt p) k)
  refine congrArg (V m c main_v8) (funext fun a => Fin.ext ?_)
  match a with
  | ⟨0, _⟩ => show win0_0.index t (0 : Fin 2) * 4096 + 1 * p.val = 4096 * (t.val / 8) + p.val; omega
  | ⟨1, _⟩ => show win0_0.index t (1 : Fin 2) * 768 + 1 * k.val = k.val; omega

/-- Row `q` of the second operand's block at point `t` is row `1024 (t % 8) + q` of the operand. -/
theorem blkB_apply (c : Dev nD) (t : Fin cfg0.N) (q : Fin 1024) (k : Fin 768) (hq : 1024 * (t.val % 8) + q.val < 8192) :
    blkB m c t (ix2 q k) = opB m c (ix2 ⟨1024 * (t.val % 8) + q.val, hq⟩ k) := by
  obtain ⟨-, -, e2, e3, -⟩ := idx_facts t
  show V m c main_v11 (((cfg0.win 1).blk t).view.emb (ix2 q k)) = V m c main_v11 (ix2 ⟨1024 * (t.val % 8) + q.val, hq⟩ k)
  refine congrArg (V m c main_v11) (funext fun a => Fin.ext ?_)
  match a with
  | ⟨0, _⟩ => show win0_1.index t (0 : Fin 2) * 1024 + 1 * q.val = 1024 * (t.val % 8) + q.val; omega
  | ⟨1, _⟩ => show win0_1.index t (1 : Fin 2) * 768 + 1 * k.val = k.val; omega

/-- ONE STEP: if the accumulator's entry holds the maximum over the rows below column block `t % 8`, the update at point
    `t` leaves the maximum over the rows below the next block. -/
theorem step_eq (c : Dev nD) (t : Fin cfg0.N) (p : Fin 4096) (z : Fin 1) (xs : Vec Ideal S4096x1 .f32)
    (hxs : xs (ix2 p z) = maxBelow (sim (opA m c) (opB m c) (rowOf t.val t.isLt p)) (1024 * (t.val % 8))) :
    k0_pay2 (F := Ideal) (blkA m c t) (blkB m c t) xs (ix2 p z)
      = maxBelow (sim (opA m c) (opB m c) (rowOf t.val t.isLt p)) (1024 * (t.val % 8 + 1)) := by
  refine (update_apply (blkA m c t) (blkB m c t) xs p z).trans ?_
  rw [hxs, ← maxBelow_step _ (t.val % 8) (Nat.mod_lt _ (by decide))]
  refine congrArg (max _) ?_
  refine congrArg (fun f => (Finset.univ : Finset (Fin 1024)).fold max ⊥ f) (funext fun q => ?_)
  unfold sim
  refine Finset.sum_congr rfl fun k _ => ?_
  rw [blkA_apply, blkB_apply]

/-- THE ACCUMULATOR after point `n`: entry `p` is the maximum, over the rows below `1024 (n % 8 + 1)` of the second
    operand, of the inner product with row `4096 (n / 8) + p` of the first. By induction on the point: a first column
    block starts from the reset (bottom), any other from what the point before left for the same row tile. -/
theorem acc_eq (c : Dev nD) : ∀ (n : ℕ) (hn : n < cfg0.N) (p : Fin 4096) (z : Fin 1),
    (outsAt0 m c n hn).2 (ix2 p z)
      = maxBelow (sim (opA m c) (opB m c) (rowOf n hn p)) (1024 * (n % 8 + 1)) := by
  intro n
  induction n with
  | zero =>
    intro hn p z
    rw [outsAt0_A m c ⟨0, hn⟩ rfl (by show ¬(0 % 8 = 7); decide)]
    dsimp only
    refine (congrFun (acc_A (F := Ideal) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) scM0_0 (Memref.isWhole_whole _) _ _ (blkA m c ⟨0, hn⟩) (blkB m c ⟨0, hn⟩)) (ix2 p z)).trans ?_
    refine step_eq m c ⟨0, hn⟩ p z (k0_pay1 (F := Ideal)) ?_
    rw [reset_apply]
    exact (maxBelow_zero _).symm
  | succ n ih =>
    intro hn p z
    have hN : cfg0.N = 16 := N_0
    have hn' : n < cfg0.N := Nat.lt_of_succ_lt hn
    by_cases h0 : (n + 1) % 8 = 0
    · have h1 : ¬(n + 1) % 8 = 7 := by omega
      rw [outsAt0_A m c ⟨n + 1, hn⟩ h0 h1]
      dsimp only
      refine (congrFun (acc_A (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) scM0_0 (Memref.isWhole_whole _) _ _ (blkA m c ⟨n + 1, hn⟩) (blkB m c ⟨n + 1, hn⟩)) (ix2 p z)).trans ?_
      refine step_eq m c ⟨n + 1, hn⟩ p z (k0_pay1 (F := Ideal)) ?_
      rw [reset_apply]
      show ⊥ = maxBelow _ (1024 * ((n + 1) % 8))
      rw [h0]
      exact (maxBelow_zero _).symm
    · have hprev : (outsAt0 m c n hn').2 (ix2 p z)
          = maxBelow (sim (opA m c) (opB m c) (rowOf (n + 1) hn p)) (1024 * ((n + 1) % 8)) := by
        rw [ih hn' p z]
        have e1 : rowOf n hn' p = rowOf (n + 1) hn p := Fin.ext (by show 4096 * (n / 8) + p.val = 4096 * ((n + 1) / 8) + p.val; omega)
        have e2 : n % 8 + 1 = (n + 1) % 8 := by omega
        rw [e1, e2]
      by_cases h1 : (n + 1) % 8 = 7
      · rw [outsAt0_C m c ⟨n + 1, hn⟩ h0 h1]
        dsimp only
        refine (congrFun (acc_C (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) scM0_0 (Memref.isWhole_whole _) _ _ (blkA m c ⟨n + 1, hn⟩) (blkB m c ⟨n + 1, hn⟩)
          (outsAt0 m c n hn').2) (ix2 p z)).trans ?_
        exact step_eq m c ⟨n + 1, hn⟩ p z (outsAt0 m c n hn').2 hprev
      · rw [outsAt0_B m c ⟨n + 1, hn⟩ h0 h1]
        dsimp only
        refine (congrFun (acc_B (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) scM0_0 (Memref.isWhole_whole _) _ _ (blkA m c ⟨n + 1, hn⟩) (blkB m c ⟨n + 1, hn⟩)
          (outsAt0 m c n hn').2) (ix2 p z)).trans ?_
        exact step_eq m c ⟨n + 1, hn⟩ p z (outsAt0 m c n hn').2 hprev

/-! ## The array the pallas_call leaves -/

/-- The 8192 x 1 result: entry `(r, 0)` is the maximum over all rows `q` of the second operand of the inner product of
    row `r` of the first with row `q`. -/
def column (c : Dev nD) : S8192x1.Idx → EReal := fun i => rowMax (opA m c) (opB m c) ⟨(i 0).val, idx2_lt0 i⟩

/-- WHAT A LAST COLUMN BLOCK WRITES BACK: the accumulator after the eighth block — the maximum over all 8192 rows —
    for the rows of its tile, which is that tile's block of the result. -/
theorem flushed_eq (c : Dev nD) (t : Fin cfg0.N) (hf : (cfg0.win 2).flush t = true) :
    (dats m 0 c).flushed 2 t = ((cfg0.win 2).blk t).view.read (Elt Ideal) (column m c) := by
  have hN : cfg0.N = 16 := N_0
  have h7 : t.val % 8 = 7 := (flush0_2 t).mp hf
  have h0 : ¬t.val % 8 = 0 := by omega
  obtain ⟨n, hn⟩ := t
  obtain ⟨n, rfl⟩ : ∃ k, n = k + 1 := ⟨n - 1, by dsimp only at h7; omega⟩
  have hn' : n < cfg0.N := Nat.lt_of_succ_lt hn
  have e4 : win0_2.index ⟨n + 1, hn⟩ (0 : Fin 2) = (n + 1) / 8 := (idx_facts ⟨n + 1, hn⟩).2.2.2.2.1
  have h7' : (n + 1) % 8 = 7 := h7
  show (cfg0.win 2).cut (grid0.coords ⟨n + 1, hn⟩) ((dats m 0 c).after 2 ⟨n + 1, hn⟩) = _
  rw [after0_2, outsAt0_C m c ⟨n + 1, hn⟩ h0 h7]
  dsimp only
  refine funext fun (y : S4096x1.Idx) => ?_
  obtain ⟨p, z, rfl⟩ : ∃ (p : Fin 4096) (z : Fin 1), y = ix2 p z := ⟨y 0, y 1, eq_ix2 y⟩
  refine (congrFun (out_C (F := Ideal) c (grid0.coords ⟨n + 1, hn⟩) (ms0_0 ⟨n + 1, hn⟩) (hs0_0 ⟨n + 1, hn⟩) (ms0_1 ⟨n + 1, hn⟩) (hs0_1 ⟨n + 1, hn⟩)
    (ms0_2 ⟨n + 1, hn⟩) (hs0_2 ⟨n + 1, hn⟩) scM0_0 (Memref.isWhole_whole _) _ _ (blkA m c ⟨n + 1, hn⟩) (blkB m c ⟨n + 1, hn⟩)
    (outsAt0 m c n hn').2) (ix2 p z)).trans ?_
  have hprev : (outsAt0 m c n hn').2 (ix2 p z)
      = maxBelow (sim (opA m c) (opB m c) (rowOf (n + 1) hn p)) (1024 * ((n + 1) % 8)) := by
    rw [acc_eq m c n hn' p z]
    have e1 : rowOf n hn' p = rowOf (n + 1) hn p := Fin.ext (by show 4096 * (n / 8) + p.val = 4096 * ((n + 1) / 8) + p.val; omega)
    have e2 : n % 8 + 1 = (n + 1) % 8 := by omega
    rw [e1, e2]
  refine (step_eq m c ⟨n + 1, hn⟩ p z (outsAt0 m c n hn').2 hprev).trans ?_
  have e8 : 1024 * ((n + 1) % 8 + 1) = 8192 := by omega
  show maxBelow _ (1024 * ((n + 1) % 8 + 1)) = _
  rw [e8, maxBelow_all]
  show rowMax (opA m c) (opB m c) (rowOf (n + 1) hn p)
    = rowMax (opA m c) (opB m c) ⟨((((cfg0.win 2).blk ⟨n + 1, hn⟩).view.emb (ix2 p z)) 0).val, _⟩
  refine congrArg (rowMax (opA m c) (opB m c)) (Fin.ext ?_)
  show 4096 * ((n + 1) / 8) + p.val = win0_2.index ⟨n + 1, hn⟩ (0 : Fin 2) * 4096 + 1 * p.val
  omega

/-- Every entry of the result lies in the block some last-column-block point writes back: row `r` in tile `r / 4096`. -/
theorem cover (c : Dev nD) (i : S8192x1.Idx) :
    ∃ t : Fin cfg0.N, (cfg0.win 2).flush t = true ∧ i ∈ ((cfg0.win 2).blk t).view.set := by
  have hN : cfg0.N = 16 := N_0
  have hi0 : (i 0).val < 8192 := idx2_lt0 i
  have hi1 : (i 1).val < 1 := idx2_lt1 i
  let t : Fin cfg0.N := ⟨8 * ((i 0).val / 4096) + 7, by omega⟩
  obtain ⟨-, -, -, -, e4, e5⟩ := idx_facts t
  have et : t.val = 8 * ((i 0).val / 4096) + 7 := rfl
  refine ⟨t, (flush0_2 t).mpr (by omega), ?_⟩
  show i ∈ ((View.whole main_v12).slice (win0_2.rect t)).set
  rw [View.set_slice_whole, Rect.mem_set_unit]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 1 ≤ (i 1).val ∧ (i 1).val < win0_2.index t (1 : Fin 2) * 1 + 1; omega

/-- So the pallas_call's result array ends holding the column of row maxima. -/
theorem final (c : Dev nD) : (dats m 0 c).arrAt 2 cfg0.N = column m c :=
  (dats m 0 c).arrAt_eq_of_cover 2 (column m c) (flushed_eq m c) (cover c)

end Cert.KernelIdeal.RowMaxValue

end
-- ==== Proof.KiRun.lean ====
/-
  The kernel program around its pallas_call.

  Before the call the host normalises the rows of each argument (`normRows`; the narrowing to a shorter float format
  is the identity over the extended reals), so the call's two operands are the normalised arguments. After the call the
  host reshapes the 8192 x 1 column of row maxima to a vector of 8192 entries: entry `r` is the column's entry
  `(r, 0)`. So the program ends with the vector of row maxima of the two normalised arguments.
-/
import proofs.«144138_j31258771980987_1_alg».proof.Proof.KiAccum
import Idealize.ShloMosaic.Lib.StableHlo.Run

noncomputable section

namespace Cert.KernelIdeal.RowMaxValue

open Cert.KernelIdeal Cert.KernelIdeal.Gen Idealize.ShloMosaic Idealize.ShloMosaic.TcCoe Idealize.SL.Sem
open Idealize.ShloMosaic.ValueIdx Cert.RowMax
open Idealize.ShloMosaic.Pipeline (Dat)

variable (m : (ℓ : Loc nD τ sig) → Buf (Elt Ideal) ℓ) (ρ : Dev nD → PrngReg)

/-- Each row divided by the larger of its Euclidean norm and a small positive constant. -/
def normRows (x : FVec Ideal S8192x768 .f32) : Mat :=
  Host.divf (F := Ideal) x (broadcastInDim S8192x768 ![0, 1] bcast_S8192x1_S8192x768_0_1
    (maximumf (F := Ideal) (Host.sqrt (F := Ideal) (broadcastInDim S8192x1 ![0] bcast_S8192_S8192x1_0
      (Host.reduceAdd (F := Ideal) (mulf (F := Ideal) x x) (constant (F := Ideal) S_ .f32 0x00000000#32) reducesTo_S8192x768_S8192_d1 h_S_)))
      (broadcastInDim S8192x1 ![] bcast_S_S8192x1 (constant (F := Ideal) S_ .f32 0x322BCC77#32))))

/-- The call's first operand is the first argument with its rows normalised. -/
theorem opA_eq (c : Dev nD) : opA m c = normRows (m ((c : Thread nD τ).loc main_arg0)) := by
  show (V m c main_v8 : S8192x768.Idx → EReal) = _
  dsimp only [V, V0]
  simp only [hostOps0, hostOps0_1, hostOps0_2, hostOps0_3, List.flatten_cons, List.flatten_nil, List.append_nil, List.cons_append, List.nil_append]
  after_results
  rfl

/-- The call's second operand is the second argument with its rows normalised. -/
theorem opB_eq (c : Dev nD) : opB m c = normRows (m ((c : Thread nD τ).loc main_arg1)) := by
  show (V m c main_v11 : S8192x768.Idx → EReal) = _
  dsimp only [V, V0]
  simp only [hostOps0, hostOps0_1, hostOps0_2, hostOps0_3, List.flatten_cons, List.flatten_nil, List.append_nil, List.cons_append, List.nil_append]
  after_results
  rfl

/-- After the call: the reshape of the column the call left is the vector of row maxima. -/
theorem tail_eq (c : Dev nD) :
    Pipeline.afterTail₀ cfgs (dats m) 0 (V0 m) [hostOps1] c main_v13 = result (opA m c) (opB m c) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = column m c :=
    (Pipeline.withArrays_arr spec0 launch0.win.arr_inj c _ _ 2).trans (final m c)
  funext i
  obtain ⟨r, rfl⟩ : ∃ r : Fin 8192, i = ix1 r := ⟨i 0, eq_ix1 i⟩
  show shapeCast S8192 (Pipeline.withArrays (cfgs 0).spec c (V0 m c) (fun w => (dats m 0 c).arrAt w (cfgs 0).N) (Proc.devRef .tc main_v12))
    shapeCasts_S8192x1_S8192 (ix1 r) = _
  rw [hw]
  refine (shapeCast_apply (column m c) shapeCasts_S8192x1_S8192 (ix1 r) (ix2 r (0 : Fin 1)) ?_).trans ?_
  · rw [Shape.rowMajor_val_two, Shape.rowMajor_val_one]
    show r.val * 1 + 0 = r.val
    omega
  · rfl

/-- THE KERNEL PROGRAM'S RUN, READ: every weakly fair execution ends with the result at the vector of row maxima of the
    two normalised arguments, and the arguments unchanged. -/
theorem run : θ_run defs (onTc (τ := τ) (main (F := Ideal))) ⟨m, fun _ => 0, ρ⟩ fun r => ∀ c : Dev nD,
      r.2.mem ((c : Thread nD τ).loc main_v13)
        = result (normRows (m ((c : Thread nD τ).loc main_arg0))) (normRows (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(((h c).2 main_v13 (Pipeline.mem_restRefs_of main_v13 (by decide) (by decide))).trans (tail_eq m c)).trans
        (by rw [opA_eq, opB_eq]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RowMaxValue

end
-- ==== Proof.RefValue.lean ====
/-
  The reference at an entry: the host's maximum over axis 1 of the 8192 x 8192 matrix of inner products of the normalised
  rows is, at row `r`, the fold of `max` from minus infinity over all rows `q` of the inner product of row `r` of the first
  normalised array with row `q` of the second. Both arrays are normalised by one and the same function.
-/
import proofs.«144138_j31258771980987_1_alg».proof.Proof.Gen.ReferenceIdeal.Read
import proofs.«144138_j31258771980987_1_alg».proof.Proof.RowMaxSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.RowMax

/-- The word of minus infinity denotes the bottom element of the extended reals. -/
theorem negInf_eq_bot : Ideal.ofBits .f32 0xFF800000#32 = (⊥ : EReal) := by
  simp [Ideal.ofBits, Ideal.ieee]

/-- The second array is normalised by the same function as the first. -/
theorem normB_eq (x : (⟨S8192x768, .f32⟩ : BufTy).Contents (Elt Ideal)) :
    val_main_v9 (F := Ideal) x = val_main_v7 (F := Ideal) x := rfl

/-- The matrix of inner products at `(r, q)`. -/
theorem gram_apply (x0 x1 : (⟨S8192x768, .f32⟩ : BufTy).Contents (Elt Ideal)) (r q : Fin 8192) :
    val_main_v10 (F := Ideal) x0 x1 (ix2 r q) = sim (val_main_v7 (F := Ideal) x0) (val_main_v7 (F := Ideal) x1) r q := by
  rw [val_main_v10_apply, normB_eq]
  unfold sim
  refine Finset.sum_congr rfl fun k _ => ?_
  have el : lidx_main_v10 (ix2 r q) k = ix2 r k := funext fun a => Fin.ext (by match a with | ⟨0, _⟩ => rfl | ⟨1, _⟩ => rfl)
  have er : ridx_main_v10 (ix2 r q) k = ix2 q k := funext fun a => Fin.ext (by match a with | ⟨0, _⟩ => rfl | ⟨1, _⟩ => rfl)
  rw [el, er]

/-- The host's maximum over axis 1 of an 8192 x 8192 array from minus infinity, at row `r`: the fold of `max` from the
    bottom element over the 8192 columns. -/
theorem hostRowMax (w : FVec Ideal S8192x8192 .f32) (h' : S8192x8192.ReducesTo [1] S8192) (h : S8192x8192.Reduces [1] S8192)
    (hu : 0 < S_.numel) (r : Fin 8192) :
    Host.reduce FloatOps.maximumf w (constant (F := Ideal) S_ .f32 0xFF800000#32) h' hu (ix1 r)
      = (Finset.univ : Finset (Fin 8192)).fold max ⊥ fun q => w (ix2 r q) := by
  rw [Host.reduce_eq_fold_single FloatOps.maximumf w _ h' h hu]
  show (Finset.univ : Finset (Fin 8192)).fold max (Ideal.ofBits .f32 0xFF800000#32) (w ∘ h.lift (ix1 r)) = _
  rw [negInf_eq_bot]
  refine congrArg (fun f => (Finset.univ : Finset (Fin 8192)).fold max ⊥ f) (funext fun q => ?_)
  exact congrArg w (funext fun a => Fin.ext (by match a with | ⟨0, _⟩ => rfl | ⟨1, _⟩ => rfl))

/-- The reference's result is the vector of row maxima of the normalised arrays. -/
theorem result_eq (x0 x1 : (⟨S8192x768, .f32⟩ : BufTy).Contents (Elt Ideal)) :
    val_main_v11 (F := Ideal) x0 x1 = result (val_main_v7 (F := Ideal) x0) (val_main_v7 (F := Ideal) x1) := by
  funext i
  obtain ⟨r, rfl⟩ : ∃ r : Fin 8192, i = ix1 r := ⟨i 0, eq_ix1 i⟩
  unfold val_main_v11 val_main_cst_1
  refine (hostRowMax (val_main_v10 (F := Ideal) x0 x1) reducesTo_S8192x8192_S8192_d1 (by decide) h_S_ r).trans ?_
  show _ = rowMax (val_main_v7 (F := Ideal) x0) (val_main_v7 (F := Ideal) x1) r
  unfold rowMax
  exact congrArg (fun f => (Finset.univ : Finset (Fin 8192)).fold max ⊥ f) (funext fun q => gram_apply x0 x1 r q)

end Cert.ReferenceIdeal.RefValue

end
-- ==== Proof.lean ====
/-
  The certificate of a row-wise maximum of cosine similarities.

  Both programs first divide every row of each of the two 8192 x 768 arguments by the larger of the row's Euclidean
  norm and a small positive constant — the same host operations in the same order (the kernel program then narrows the
  two arrays to a shorter float format, which changes nothing over the extended reals). The reference forms the
  8192 x 8192 matrix of inner products of the normalised rows and takes each row's maximum from minus infinity. The
  kernel walks a 2 x 8 grid: for each tile of 4096 rows of the first array it keeps a column of running maxima, reset
  to minus infinity at the first of eight blocks of 1024 rows of the second array, joined with each block's row maxima
  of the tile-by-block product, and written out after the eighth. Over the extended reals a maximum over 8192 rows is
  the maximum of the eight block maxima (only the order laws of `max`; no finiteness is used), and the two inner
  products are the same sum, so the two results agree entry by entry.

  The frames of the two kernel programs and the reference's run are generated modules; written by hand are the
  body's arithmetic at an entry, what each control case leaves in the accumulator, the induction over the grid's
  points, the array the pallas_call leaves and the host reshape after it, and the reference's maximum at an entry.
  The ideal pass rewrote nothing, so `preserves` is trivial.
-/
import proofs.«144138_j31258771980987_1_alg».proof.Defs
import proofs.«144138_j31258771980987_1_alg».proof.Proof.Gen.Kernel
import proofs.«144138_j31258771980987_1_alg».proof.Proof.Gen.Kernel.Skeleton
import proofs.«144138_j31258771980987_1_alg».proof.Proof.Gen.Kernel.Launch
import proofs.«144138_j31258771980987_1_alg».proof.Proof.Gen.Kernel.Points
import proofs.«144138_j31258771980987_1_alg».proof.Proof.Gen.Kernel.Frame
import proofs.«144138_j31258771980987_1_alg».proof.Proof.Gen.KernelIdeal
import proofs.«144138_j31258771980987_1_alg».proof.Proof.Gen.KernelIdeal.Skeleton
import proofs.«144138_j31258771980987_1_alg».proof.Proof.Gen.KernelIdeal.Launch
import proofs.«144138_j31258771980987_1_alg».proof.Proof.Gen.KernelIdeal.Points
import proofs.«144138_j31258771980987_1_alg».proof.Proof.Gen.KernelIdeal.Frame
import proofs.«144138_j31258771980987_1_alg».proof.Proof.Gen.ReferenceIdeal
import proofs.«144138_j31258771980987_1_alg».proof.Proof.Gen.Pre_finite_inputs
import proofs.«144138_j31258771980987_1_alg».proof.Proof.Gen.ReferenceIdeal.Run
import proofs.«144138_j31258771980987_1_alg».proof.Proof.Gen.ReferenceIdeal.Read
import proofs.«144138_j31258771980987_1_alg».proof.Proof.KiRun
import proofs.«144138_j31258771980987_1_alg».proof.Proof.RefValue
import Idealize.ShloMosaic.Adequacy
import Idealize.ShloMosaic.Init

noncomputable section

namespace Cert.Proof

open Idealize.ShloMosaic Idealize.ShloMosaic.TcCoe Idealize.SL.Sem

/-- The kernel program and the reference normalise the rows by one function. -/
theorem normRows_eq (x : FVec Ideal Cert.KernelIdeal.S8192x768 .f32) :
    Cert.KernelIdeal.RowMaxValue.normRows x = Cert.ReferenceIdeal.Read.val_main_v7 (F := Ideal) x := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the vector of row maxima of the two normalised arguments. -/
theorem algebraic : Cert.algebraic_KernelIdeal_ReferenceIdeal := by
  intro m ρ m' ρ' _ hagree
  refine ⟨_, Cert.KernelIdeal.RowMaxValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2,
    normRows_eq, normRows_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
